-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16384x200 : Shape := ⟨2, ![16384, 200]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 1 := constantI S_ 1 1#1
  let main_v2 : IVec S_ 1 := (fun x v => Host.reduce IntOp.andi x v reducesTo_S16384x200_S_d0_1 h_S_) main_v1 main_c_0
  main_v2
-- ==== Kernel.lean ====
abbrev S16384x200 : Shape := ⟨2, ![16384, 200]⟩
abbrev S16384x1152 : Shape := ⟨2, ![16384, 1152]⟩
abbrev S256x200 : Shape := ⟨2, ![256, 200]⟩
abbrev S256x128 : Shape := ⟨2, ![256, 128]⟩
abbrev S1x128 : Shape := ⟨2, ![1, 128]⟩
abbrev S256x1 : Shape := ⟨2, ![256, 1]⟩
abbrev S16384x1099 : Shape := ⟨2, ![16384, 1099]⟩

abbrev nBuf : Space → Nat
  | .hbm => 3
  | .vmem => 4
  | .smem => 0
  | _ => 0

abbrev bufTy : (tb : Table) → Fin (tcTables nBuf tb) → BufTy
  | .hbm, ⟨0, _⟩ => ⟨S16384x200, .i32⟩
  | .hbm, ⟨1, _⟩ => ⟨S16384x1152, .f32⟩
  | .hbm, ⟨2, _⟩ => ⟨S16384x1099, .f32⟩
  | .local _ .vmem, ⟨0, _⟩ => ⟨S256x200, .i32⟩
  | .local _ .vmem, ⟨1, _⟩ => ⟨S256x200, .i32⟩
  | .local _ .vmem, ⟨2, _⟩ => ⟨S256x128, .f32⟩
  | .local _ .vmem, ⟨3, _⟩ => ⟨S256x128, .f32⟩
  | _, _ => ⟨S16384x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  iota_S1x128_d1_w32 : S1x128.Iotas .tc 32 [1]
  inb_S256x200_S256x200_0_0 : ∀ a, (![0, 0] : Fin 2 → Nat) a + S256x200.size a ≤ S256x200.size a
  h_S256x200 : 0 < S256x200.numel
  slices_S256x200_o0_0_S256x1 : S256x200.Slices ![0, 0] S256x1
  broadcasts_S256x1_S256x128 : S256x1.Broadcasts S256x128
  broadcasts_S1x128_S256x128 : S1x128.Broadcasts S256x128
  natLt_1_32 : 1 < 32
  bitsLt_bf16_f32 : FTy.bits .bf16 < FTy.bits .f32
  slices_S256x200_o0_1_S256x1 : S256x200.Slices ![0, 1] S256x1
  slices_S256x200_o0_2_S256x1 : S256x200.Slices ![0, 2] S256x1
  slices_S256x200_o0_3_S256x1 : S256x200.Slices ![0, 3] S256x1
  slices_S256x200_o0_4_S256x1 : S256x200.Slices ![0, 4] S256x1
  slices_S256x200_o0_5_S256x1 : S256x200.Slices ![0, 5] S256x1
  slices_S256x200_o0_6_S256x1 : S256x200.Slices ![0, 6] S256x1
  slices_S256x200_o0_7_S256x1 : S256x200.Slices ![0, 7] S256x1
  slices_S256x200_o0_8_S256x1 : S256x200.Slices ![0, 8] S256x1
  slices_S256x200_o0_9_S256x1 : S256x200.Slices ![0, 9] S256x1
  slices_S256x200_o0_10_S256x1 : S256x200.Slices ![0, 10] S256x1
  slices_S256x200_o0_11_S256x1 : S256x200.Slices ![0, 11] S256x1
  slices_S256x200_o0_12_S256x1 : S256x200.Slices ![0, 12] S256x1
  slices_S256x200_o0_13_S256x1 : S256x200.Slices ![0, 13] S256x1
  slices_S256x200_o0_14_S256x1 : S256x200.Slices ![0, 14] S256x1
  slices_S256x200_o0_15_S256x1 : S256x200.Slices ![0, 15] S256x1
  slices_S256x200_o0_16_S256x1 : S256x200.Slices ![0, 16] S256x1
  slices_S256x200_o0_17_S256x1 : S256x200.Slices ![0, 17] S256x1
  slices_S256x200_o0_18_S256x1 : S256x200.Slices ![0, 18] S256x1
  slices_S256x200_o0_19_S256x1 : S256x200.Slices ![0, 19] S256x1
  slices_S256x200_o0_20_S256x1 : S256x200.Slices ![0, 20] S256x1
  slices_S256x200_o0_21_S256x1 : S256x200.Slices ![0, 21] S256x1
  slices_S256x200_o0_22_S256x1 : S256x200.Slices ![0, 22] S256x1
  slices_S256x200_o0_23_S256x1 : S256x200.Slices ![0, 23] S256x1
  slices_S256x200_o0_24_S256x1 : S256x200.Slices ![0, 24] S256x1
  slices_S256x200_o0_25_S256x1 : S256x200.Slices ![0, 25] S256x1
  slices_S256x200_o0_26_S256x1 : S256x200.Slices ![0, 26] S256x1
  slices_S256x200_o0_27_S256x1 : S256x200.Slices ![0, 27] S256x1
  slices_S256x200_o0_28_S256x1 : S256x200.Slices ![0, 28] S256x1
  slices_S256x200_o0_29_S256x1 : S256x200.Slices ![0, 29] S256x1
  slices_S256x200_o0_30_S256x1 : S256x200.Slices ![0, 30] S256x1
  slices_S256x200_o0_31_S256x1 : S256x200.Slices ![0, 31] S256x1
  slices_S256x200_o0_32_S256x1 : S256x200.Slices ![0, 32] S256x1
  slices_S256x200_o0_33_S256x1 : S256x200.Slices ![0, 33] S256x1
  slices_S256x200_o0_34_S256x1 : S256x200.Slices ![0, 34] S256x1
  slices_S256x200_o0_35_S256x1 : S256x200.Slices ![0, 35] S256x1
  slices_S256x200_o0_36_S256x1 : S256x200.Slices ![0, 36] S256x1
  slices_S256x200_o0_37_S256x1 : S256x200.Slices ![0, 37] S256x1
  slices_S256x200_o0_38_S256x1 : S256x200.Slices ![0, 38] S256x1
  slices_S256x200_o0_39_S256x1 : S256x200.Slices ![0, 39] S256x1
  slices_S256x200_o0_40_S256x1 : S256x200.Slices ![0, 40] S256x1
  slices_S256x200_o0_41_S256x1 : S256x200.Slices ![0, 41] S256x1
  slices_S256x200_o0_42_S256x1 : S256x200.Slices ![0, 42] S256x1
  slices_S256x200_o0_43_S256x1 : S256x200.Slices ![0, 43] S256x1
  slices_S256x200_o0_44_S256x1 : S256x200.Slices ![0, 44] S256x1
  slices_S256x200_o0_45_S256x1 : S256x200.Slices ![0, 45] S256x1
  slices_S256x200_o0_46_S256x1 : S256x200.Slices ![0, 46] S256x1
  slices_S256x200_o0_47_S256x1 : S256x200.Slices ![0, 47] S256x1
  slices_S256x200_o0_48_S256x1 : S256x200.Slices ![0, 48] S256x1
  slices_S256x200_o0_49_S256x1 : S256x200.Slices ![0, 49] S256x1
  slices_S256x200_o0_50_S256x1 : S256x200.Slices ![0, 50] S256x1
  slices_S256x200_o0_51_S256x1 : S256x200.Slices ![0, 51] S256x1
  slices_S256x200_o0_52_S256x1 : S256x200.Slices ![0, 52] S256x1
  slices_S256x200_o0_53_S256x1 : S256x200.Slices ![0, 53] S256x1
  slices_S256x200_o0_54_S256x1 : S256x200.Slices ![0, 54] S256x1
  slices_S256x200_o0_55_S256x1 : S256x200.Slices ![0, 55] S256x1
  slices_S256x200_o0_56_S256x1 : S256x200.Slices ![0, 56] S256x1
  slices_S256x200_o0_57_S256x1 : S256x200.Slices ![0, 57] S256x1
  slices_S256x200_o0_58_S256x1 : S256x200.Slices ![0, 58] S256x1
  slices_S256x200_o0_59_S256x1 : S256x200.Slices ![0, 59] S256x1
  slices_S256x200_o0_60_S256x1 : S256x200.Slices ![0, 60] S256x1
  slices_S256x200_o0_61_S256x1 : S256x200.Slices ![0, 61] S256x1
  slices_S256x200_o0_62_S256x1 : S256x200.Slices ![0, 62] S256x1
  slices_S256x200_o0_63_S256x1 : S256x200.Slices ![0, 63] S256x1
  slices_S256x200_o0_64_S256x1 : S256x200.Slices ![0, 64] S256x1
  slices_S256x200_o0_65_S256x1 : S256x200.Slices ![0, 65] S256x1
  slices_S256x200_o0_66_S256x1 : S256x200.Slices ![0, 66] S256x1
  slices_S256x200_o0_67_S256x1 : S256x200.Slices ![0, 67] S256x1
  slices_S256x200_o0_68_S256x1 : S256x200.Slices ![0, 68] S256x1
  slices_S256x200_o0_69_S256x1 : S256x200.Slices ![0, 69] S256x1
  slices_S256x200_o0_70_S256x1 : S256x200.Slices ![0, 70] S256x1
  slices_S256x200_o0_71_S256x1 : S256x200.Slices ![0, 71] S256x1
  slices_S256x200_o0_72_S256x1 : S256x200.Slices ![0, 72] S256x1
  slices_S256x200_o0_73_S256x1 : S256x200.Slices ![0, 73] S256x1
  slices_S256x200_o0_74_S256x1 : S256x200.Slices ![0, 74] S256x1
  slices_S256x200_o0_75_S256x1 : S256x200.Slices ![0, 75] S256x1
  slices_S256x200_o0_76_S256x1 : S256x200.Slices ![0, 76] S256x1
  slices_S256x200_o0_77_S256x1 : S256x200.Slices ![0, 77] S256x1
  slices_S256x200_o0_78_S256x1 : S256x200.Slices ![0, 78] S256x1
  slices_S256x200_o0_79_S256x1 : S256x200.Slices ![0, 79] S256x1
  slices_S256x200_o0_80_S256x1 : S256x200.Slices ![0, 80] S256x1
  slices_S256x200_o0_81_S256x1 : S256x200.Slices ![0, 81] S256x1
  slices_S256x200_o0_82_S256x1 : S256x200.Slices ![0, 82] S256x1
  slices_S256x200_o0_83_S256x1 : S256x200.Slices ![0, 83] S256x1
  slices_S256x200_o0_84_S256x1 : S256x200.Slices ![0, 84] S256x1
  slices_S256x200_o0_85_S256x1 : S256x200.Slices ![0, 85] S256x1
  slices_S256x200_o0_86_S256x1 : S256x200.Slices ![0, 86] S256x1
  slices_S256x200_o0_87_S256x1 : S256x200.Slices ![0, 87] S256x1
  slices_S256x200_o0_88_S256x1 : S256x200.Slices ![0, 88] S256x1
  slices_S256x200_o0_89_S256x1 : S256x200.Slices ![0, 89] S256x1
  slices_S256x200_o0_90_S256x1 : S256x200.Slices ![0, 90] S256x1
  slices_S256x200_o0_91_S256x1 : S256x200.Slices ![0, 91] S256x1
  slices_S256x200_o0_92_S256x1 : S256x200.Slices ![0, 92] S256x1
  slices_S256x200_o0_93_S256x1 : S256x200.Slices ![0, 93] S256x1
  slices_S256x200_o0_94_S256x1 : S256x200.Slices ![0, 94] S256x1
  slices_S256x200_o0_95_S256x1 : S256x200.Slices ![0, 95] S256x1
  slices_S256x200_o0_96_S256x1 : S256x200.Slices ![0, 96] S256x1
  slices_S256x200_o0_97_S256x1 : S256x200.Slices ![0, 97] S256x1
  slices_S256x200_o0_98_S256x1 : S256x200.Slices ![0, 98] S256x1
  slices_S256x200_o0_99_S256x1 : S256x200.Slices ![0, 99] S256x1
  slices_S256x200_o0_100_S256x1 : S256x200.Slices ![0, 100] S256x1
  slices_S256x200_o0_101_S256x1 : S256x200.Slices ![0, 101] S256x1
  slices_S256x200_o0_102_S256x1 : S256x200.Slices ![0, 102] S256x1
  slices_S256x200_o0_103_S256x1 : S256x200.Slices ![0, 103] S256x1
  slices_S256x200_o0_104_S256x1 : S256x200.Slices ![0, 104] S256x1
  slices_S256x200_o0_105_S256x1 : S256x200.Slices ![0, 105] S256x1
  slices_S256x200_o0_106_S256x1 : S256x200.Slices ![0, 106] S256x1
  slices_S256x200_o0_107_S256x1 : S256x200.Slices ![0, 107] S256x1
  slices_S256x200_o0_108_S256x1 : S256x200.Slices ![0, 108] S256x1
  slices_S256x200_o0_109_S256x1 : S256x200.Slices ![0, 109] S256x1
  slices_S256x200_o0_110_S256x1 : S256x200.Slices ![0, 110] S256x1
  slices_S256x200_o0_111_S256x1 : S256x200.Slices ![0, 111] S256x1
  slices_S256x200_o0_112_S256x1 : S256x200.Slices ![0, 112] S256x1
  slices_S256x200_o0_113_S256x1 : S256x200.Slices ![0, 113] S256x1
  slices_S256x200_o0_114_S256x1 : S256x200.Slices ![0, 114] S256x1
  slices_S256x200_o0_115_S256x1 : S256x200.Slices ![0, 115] S256x1
  slices_S256x200_o0_116_S256x1 : S256x200.Slices ![0, 116] S256x1
  slices_S256x200_o0_117_S256x1 : S256x200.Slices ![0, 117] S256x1
  slices_S256x200_o0_118_S256x1 : S256x200.Slices ![0, 118] S256x1
  slices_S256x200_o0_119_S256x1 : S256x200.Slices ![0, 119] S256x1
  slices_S256x200_o0_120_S256x1 : S256x200.Slices ![0, 120] S256x1
  slices_S256x200_o0_121_S256x1 : S256x200.Slices ![0, 121] S256x1
  slices_S256x200_o0_122_S256x1 : S256x200.Slices ![0, 122] S256x1
  slices_S256x200_o0_123_S256x1 : S256x200.Slices ![0, 123] S256x1
  slices_S256x200_o0_124_S256x1 : S256x200.Slices ![0, 124] S256x1
  slices_S256x200_o0_125_S256x1 : S256x200.Slices ![0, 125] S256x1
  slices_S256x200_o0_126_S256x1 : S256x200.Slices ![0, 126] S256x1
  slices_S256x200_o0_127_S256x1 : S256x200.Slices ![0, 127] S256x1
  slices_S256x200_o0_128_S256x1 : S256x200.Slices ![0, 128] S256x1
  slices_S256x200_o0_129_S256x1 : S256x200.Slices ![0, 129] S256x1
  slices_S256x200_o0_130_S256x1 : S256x200.Slices ![0, 130] S256x1
  slices_S256x200_o0_131_S256x1 : S256x200.Slices ![0, 131] S256x1
  slices_S256x200_o0_132_S256x1 : S256x200.Slices ![0, 132] S256x1
  slices_S256x200_o0_133_S256x1 : S256x200.Slices ![0, 133] S256x1
  slices_S256x200_o0_134_S256x1 : S256x200.Slices ![0, 134] S256x1
  slices_S256x200_o0_135_S256x1 : S256x200.Slices ![0, 135] S256x1
  slices_S256x200_o0_136_S256x1 : S256x200.Slices ![0, 136] S256x1
  slices_S256x200_o0_137_S256x1 : S256x200.Slices ![0, 137] S256x1
  slices_S256x200_o0_138_S256x1 : S256x200.Slices ![0, 138] S256x1
  slices_S256x200_o0_139_S256x1 : S256x200.Slices ![0, 139] S256x1
  slices_S256x200_o0_140_S256x1 : S256x200.Slices ![0, 140] S256x1
  slices_S256x200_o0_141_S256x1 : S256x200.Slices ![0, 141] S256x1
  slices_S256x200_o0_142_S256x1 : S256x200.Slices ![0, 142] S256x1
  slices_S256x200_o0_143_S256x1 : S256x200.Slices ![0, 143] S256x1
  slices_S256x200_o0_144_S256x1 : S256x200.Slices ![0, 144] S256x1
  slices_S256x200_o0_145_S256x1 : S256x200.Slices ![0, 145] S256x1
  slices_S256x200_o0_146_S256x1 : S256x200.Slices ![0, 146] S256x1
  slices_S256x200_o0_147_S256x1 : S256x200.Slices ![0, 147] S256x1
  slices_S256x200_o0_148_S256x1 : S256x200.Slices ![0, 148] S256x1
  slices_S256x200_o0_149_S256x1 : S256x200.Slices ![0, 149] S256x1
  slices_S256x200_o0_150_S256x1 : S256x200.Slices ![0, 150] S256x1
  slices_S256x200_o0_151_S256x1 : S256x200.Slices ![0, 151] S256x1
  slices_S256x200_o0_152_S256x1 : S256x200.Slices ![0, 152] S256x1
  slices_S256x200_o0_153_S256x1 : S256x200.Slices ![0, 153] S256x1
  slices_S256x200_o0_154_S256x1 : S256x200.Slices ![0, 154] S256x1
  slices_S256x200_o0_155_S256x1 : S256x200.Slices ![0, 155] S256x1
  slices_S256x200_o0_156_S256x1 : S256x200.Slices ![0, 156] S256x1
  slices_S256x200_o0_157_S256x1 : S256x200.Slices ![0, 157] S256x1
  slices_S256x200_o0_158_S256x1 : S256x200.Slices ![0, 158] S256x1
  slices_S256x200_o0_159_S256x1 : S256x200.Slices ![0, 159] S256x1
  slices_S256x200_o0_160_S256x1 : S256x200.Slices ![0, 160] S256x1
  slices_S256x200_o0_161_S256x1 : S256x200.Slices ![0, 161] S256x1
  slices_S256x200_o0_162_S256x1 : S256x200.Slices ![0, 162] S256x1
  slices_S256x200_o0_163_S256x1 : S256x200.Slices ![0, 163] S256x1
  slices_S256x200_o0_164_S256x1 : S256x200.Slices ![0, 164] S256x1
  slices_S256x200_o0_165_S256x1 : S256x200.Slices ![0, 165] S256x1
  slices_S256x200_o0_166_S256x1 : S256x200.Slices ![0, 166] S256x1
  slices_S256x200_o0_167_S256x1 : S256x200.Slices ![0, 167] S256x1
  slices_S256x200_o0_168_S256x1 : S256x200.Slices ![0, 168] S256x1
  slices_S256x200_o0_169_S256x1 : S256x200.Slices ![0, 169] S256x1
  slices_S256x200_o0_170_S256x1 : S256x200.Slices ![0, 170] S256x1
  slices_S256x200_o0_171_S256x1 : S256x200.Slices ![0, 171] S256x1
  slices_S256x200_o0_172_S256x1 : S256x200.Slices ![0, 172] S256x1
  slices_S256x200_o0_173_S256x1 : S256x200.Slices ![0, 173] S256x1
  slices_S256x200_o0_174_S256x1 : S256x200.Slices ![0, 174] S256x1
  slices_S256x200_o0_175_S256x1 : S256x200.Slices ![0, 175] S256x1
  slices_S256x200_o0_176_S256x1 : S256x200.Slices ![0, 176] S256x1
  slices_S256x200_o0_177_S256x1 : S256x200.Slices ![0, 177] S256x1
  slices_S256x200_o0_178_S256x1 : S256x200.Slices ![0, 178] S256x1
  slices_S256x200_o0_179_S256x1 : S256x200.Slices ![0, 179] S256x1
  slices_S256x200_o0_180_S256x1 : S256x200.Slices ![0, 180] S256x1
  slices_S256x200_o0_181_S256x1 : S256x200.Slices ![0, 181] S256x1
  slices_S256x200_o0_182_S256x1 : S256x200.Slices ![0, 182] S256x1
  slices_S256x200_o0_183_S256x1 : S256x200.Slices ![0, 183] S256x1
  slices_S256x200_o0_184_S256x1 : S256x200.Slices ![0, 184] S256x1
  slices_S256x200_o0_185_S256x1 : S256x200.Slices ![0, 185] S256x1
  slices_S256x200_o0_186_S256x1 : S256x200.Slices ![0, 186] S256x1
  slices_S256x200_o0_187_S256x1 : S256x200.Slices ![0, 187] S256x1
  slices_S256x200_o0_188_S256x1 : S256x200.Slices ![0, 188] S256x1
  slices_S256x200_o0_189_S256x1 : S256x200.Slices ![0, 189] S256x1
  slices_S256x200_o0_190_S256x1 : S256x200.Slices ![0, 190] S256x1
  slices_S256x200_o0_191_S256x1 : S256x200.Slices ![0, 191] S256x1
  slices_S256x200_o0_192_S256x1 : S256x200.Slices ![0, 192] S256x1
  slices_S256x200_o0_193_S256x1 : S256x200.Slices ![0, 193] S256x1
  slices_S256x200_o0_194_S256x1 : S256x200.Slices ![0, 194] S256x1
  slices_S256x200_o0_195_S256x1 : S256x200.Slices ![0, 195] S256x1
  slices_S256x200_o0_196_S256x1 : S256x200.Slices ![0, 196] S256x1
  slices_S256x200_o0_197_S256x1 : S256x200.Slices ![0, 197] S256x1
  slices_S256x200_o0_198_S256x1 : S256x200.Slices ![0, 198] S256x1
  slices_S256x200_o0_199_S256x1 : S256x200.Slices ![0, 199] S256x1
  inb_S256x128_S256x128_0_0 : ∀ a, (![0, 0] : Fin 2 → Nat) a + S256x128.size a ≤ S256x128.size a
  h_S256x128 : 0 < S256x128.numel
  slices_S16384x1152_S16384x1099_0_0 : S16384x1152.Slices ![0, 0] S16384x1099
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x200.size a ≤ S16384x200.size a
  hwx0_0 : ∀ i : grid0.Coords, EltTy.bits .i32 = 32 ∨ (Rect.block (s := S16384x200) S256x200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S16384x1152.size a
  hwx0_1 : ∀ i : grid0.Coords, EltTy.bits .f32 = 32 ∨ (Rect.block (s := S16384x1152) S256x128.size (cc0_transform_1 i) (hinb0_1 i)).WholeWords (EltTy.packing .f32)

variable [Facts₀]

abbrev win0_0 : Pipeline.Window sig grid0 :=
  Pipeline.Window.ofSpec (Memref.whole main_arg0) S256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x200 : Shape := ⟨2, ![16384, 200]⟩
abbrev S16384 : Shape := ⟨1, ![16384]⟩
abbrev S16384x1 : Shape := ⟨2, ![16384, 1]⟩
abbrev S_ : Shape := ⟨0, ![]⟩
abbrev S16384x1100 : Shape := ⟨2, ![16384, 1100]⟩
abbrev S16384x200x1 : Shape := ⟨3, ![16384, 200, 1]⟩
abbrev S16384x200x2 : Shape := ⟨3, ![16384, 200, 2]⟩
abbrev S16384x1099 : Shape := ⟨2, ![16384, 1099]⟩

abbrev nBuf : Space → Nat
  | .hbm => 27
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384, .i32⟩
  | .hbm, ⟨2, _⟩ => ⟨S16384x1, .i32⟩
  | .hbm, ⟨3, _⟩ => ⟨S_, .f32⟩
  | .hbm, ⟨4, _⟩ => ⟨S16384x1100, .f32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S_, .i32⟩
  | .hbm, ⟨13, _⟩ => ⟨S16384x200, .i32⟩
  | .hbm, ⟨14, _⟩ => ⟨S16384x200, .i1⟩
  | .hbm, ⟨15, _⟩ => ⟨S_, .i32⟩
  | .hbm, ⟨16, _⟩ => ⟨S16384x200, .i32⟩
  | .hbm, ⟨17, _⟩ => ⟨S16384x200, .i32⟩
  | .hbm, ⟨18, _⟩ => ⟨S16384x200, .i32⟩
  | .hbm, ⟨19, _⟩ => ⟨S16384x200, .i32⟩
  | .hbm, ⟨20, _⟩ => ⟨S16384x200x1, .i32⟩
  | .hbm, ⟨21, _⟩ => ⟨S16384x200x1, .i32⟩
  | .hbm, ⟨22, _⟩ => ⟨S16384x200x2, .i32⟩
  | .hbm, ⟨23, _⟩ => ⟨S_, .f32⟩
  | .hbm, ⟨24, _⟩ => ⟨S16384x200, .f32⟩
  | .hbm, ⟨25, _⟩ => ⟨S16384x1100, .f32⟩
  | .hbm, ⟨26, _⟩ => ⟨S16384x1099, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1100 : S_.BroadcastsInDim S16384x1100 (![] : Fin 0 → Fin S16384x1100.rank)
  bcast_S_S16384x1 : S_.BroadcastsInDim S16384x1 (![] : Fin 0 → Fin S16384x1.rank)
  bcast_S_S16384x200 : S_.BroadcastsInDim S16384x200 (![] : Fin 0 → Fin S16384x200.rank)
  bcast_S16384x1_S16384x200_0_1 : S16384x1.BroadcastsInDim S16384x200 (![0, 1] : Fin 2 → Fin S16384x200.rank)
  bcast_S16384x200_S16384x200x1_0_1 : S16384x200.BroadcastsInDim S16384x200x1 (![0, 1] : Fin 2 → Fin S16384x200x1.rank)
  concatenates_S16384x200x1_S16384x200x1_S16384x200x2_d2 : Shape.Concatenates [S16384x200x1, S16384x200x1] S16384x200x2 2
  slices_S16384x1100_S16384x1099_0_1 : S16384x1100.Slices ![0, 1] S16384x1099
  scatter_S16384x1100_S16384x200x2_S16384x200_n_01_01_2_wf : ScatterDims.WF S16384x1100 S16384x200x2 S16384x200 [] [0, 1] [0, 1] 2

variable [Facts₀]

def scatter_S16384x1100_S16384x200x2_S16384x200_n_01_01_2 : ScatterDims S16384x1100 S16384x200x2 S16384x200 where
  updateWindowDims := []
  insertedWindowDims := [0, 1]
  scatterDimsToOperandDims := [0, 1]
  indexVectorDim := 2
  wf := scatter_S16384x1100_S16384x200x2_S16384x200_n_01_01_2_wf

class Facts : Prop extends Facts₀ where

variable [Facts]
-- ==== Proof.Spec.lean ====
/-
  The bag-of-words count, as one function of the token array.

  For a row `b` of the [16384, 200] token array and a column `c`, the entry is the number of positions
  `s` of the row whose token is the id `c + 1` (column 0 stands for id 1: id 0, the padding token, has no
  column). Each position contributes `hit`: 1 when the token is the id, 0 otherwise; the count is their
  sum over the 200 positions, an exact extended real.
-/
import Idealize.ShloMosaic.PureOps.Ideal
import Idealize.ShloMosaic.Lib.ValueIdx

noncomputable section

namespace Cert.Bow

open Idealize.ShloMosaic Idealize.ShloMosaic.ValueIdx

/-- One position's contribution to a column: 1 when the token is the column's id, else 0. -/
def hit (tok id : BitVec 32) : EReal := if tok = id then 1 else 0

/-- The id column `c` counts: `c + 1`, as a 32-bit word. -/
def colId (c : Nat) : BitVec 32 := BitVec.ofNat 32 (c + 1)

/-- How many of row `b`'s 200 tokens are the id of column `c`. -/
def count (x : IVec (⟨2, ![16384, 200]⟩ : Shape) 32) (b : Fin 16384) (c : Nat) : EReal :=
  ∑ s : Fin 200, hit (x (ix2 b s)) (colId c)

/-- The result: the counts of the 1099 ids 1 … 1099, row by row. -/
def G (x : IVec (⟨2, ![16384, 200]⟩ : Shape) 32) : (⟨2, ![16384, 1099]⟩ : Shape).Idx → EReal :=
  fun j => count x (j 0) (j 1).val

/-- The same over 1152 columns (nine tiles of 128): what the tiled computation fills before the last 53
    columns are dropped. -/
def Gwide (x : IVec (⟨2, ![16384, 200]⟩ : Shape) 32) : (⟨2, ![16384, 1152]⟩ : Shape).Idx → EReal :=
  fun j => count x (j 0) (j 1).val

end Cert.Bow

end
-- ==== Proof.PayloadAux.lean ====
/-
  Two small facts about one step of the count.

  A comparison of two 32-bit words, widened from one bit to 32 and converted to a float, is 1 when the words are
  equal and 0 otherwise. The row of ids a grid point compares against is, at lane `q`, the id of column
  `128·i₁ + q`: the lane number plus `128·i₁` plus 1, none of which wraps (the largest is 1152).
-/
import proofs.«429067_j37941741093587_3_alg».proof.Proof.Spec
import proofs.«429067_j37941741093587_3_alg».proof.Proof.Gen.KernelIdeal.Skeleton
import Idealize.ShloMosaic.Lib.ValueIdx

noncomputable section

namespace Cert.Bow

open Idealize.ShloMosaic Idealize.ShloMosaic.ValueIdx Cert.KernelIdeal Cert.KernelIdeal.Gen

/-- The widened, converted comparison of two words is their `hit`. -/
theorem hit_of_cmp (a b : BitVec 32) :
    FloatOps.sitofp (F := Ideal) .f32 (BitVec.setWidth 32 (IntOp.cmpi .eq a b)) = hit a b := by
  -- at the ideal instance the conversion is the word's signed value as an extended real
  show (((BitVec.setWidth 32 (IntOp.cmpi .eq a b)).toInt : ℝ) : EReal) = hit a b
  unfold hit IntOp.cmpi
  by_cases hab : a = b
  · -- equal words: the one-bit word is 1, widened it is the 32-bit word 1, whose signed value is 1
    subst hab
    simp
  · -- different words: the one-bit word is 0, and so is its widening and its signed value
    have hne : (a == b) = false := beq_eq_false_iff_ne.2 hab
    simp [hab, hne]

/-- The id row of grid point `i` at lane `q` is the id of column `128·i₁ + q`. -/
theorem idrow_apply (i : grid0.Coords) (q : Fin 128) :
    k0_pay1 i (ix2 (0 : Fin 1) q) = colId (128 * (i 1).val + q.val) := by
  have hi : (i 1).val < 9 := (i 1).isLt
  have hq : q.val < 128 := q.isLt
  -- the lane number along axis 1 of the one-row shape, plus the word `i₁ · 128`, plus the word 1
  show BitVec.ofNat 32 (0 * 128 + q.val) + BitVec.ofNat 32 (i 1).val * 128#32 + 1#32
      = BitVec.ofNat 32 (128 * (i 1).val + q.val + 1)
  -- with `i₁ < 9` and `q < 128` every intermediate value is at most 1152, far below 2³²: nothing wraps
  apply BitVec.eq_of_toNat_eq
  simp
  omega

end Cert.Bow

end
-- ==== Proof.Payload.lean ====
/-
  What one grid point stores, read at an index.

  At grid point `i = (i₀, i₁)` the body compares each of the 200 token columns of its [256, 200] block with the
  row of ids `128·i₁ + q + 1` (q the lane, 0 … 127), turns each comparison into 0 or 1 and adds the 200 results
  into a running sum that starts at zero. So entry `(p, q)` of the stored [256, 128] block is the number of
  positions `s` of block row `p` whose token is the id of column `128·i₁ + q`.

  The argument. The 200 steps of the body are one function `step` of the column number `s` and the running sum;
  `accUpTo n` is the running sum after the first `n` of them, and the stored block is the widening of `accUpTo 200`
  (the payload definitions unfold to exactly that nest). Read at `(p, q)`, a step adds to the running sum the 0/1
  value of "the token at `(p, s)` is lane `q`'s id": the slice of column `s` and its spreading over the lanes read
  the token at `(p, s)`, the spreading of the id row over the rows reads the id of lane `q`, and the widened,
  converted comparison of the two is `hit`. By induction on `n` the running sum after `n` steps is the sum of the
  first `n` of these values, and `n = 200` is the statement.
-/
import proofs.«429067_j37941741093587_3_alg».proof.Proof.Spec
import proofs.«429067_j37941741093587_3_alg».proof.Proof.FrameKI
import proofs.«429067_j37941741093587_3_alg».proof.Proof.PayloadAux
import Idealize.ShloMosaic.Lib.Pipeline.Value

noncomputable section

namespace Cert.Bow

open Idealize.ShloMosaic Idealize.ShloMosaic.ValueIdx Cert.KernelIdeal Cert.KernelIdeal.Gen

section AnyInstance
variable {F : FTy → Type} [FloatOps F]

/-- The offsets `(0, 0)` of the body's one load and one store are the zero offsets. -/
theorem zero_offsets : (![0, 0] : Fin 2 → Nat) = fun _ => 0 := funext fun a => by fin_cases a <;> rfl

/-- Each of the 200 columns of a [256, 200] block can be sliced out as a [256, 1] column: column `n` ends at
    `n + 1 ≤ 200`, and all 256 rows are taken. -/
theorem slices_col (n : Nat) (h : n < 200) : S256x200.Slices ![0, n] S256x1 :=
  ⟨rfl, fun a => by
    fin_cases a
    · show 0 + 256 ≤ 256; omega
    · show n + 1 ≤ 200; omega⟩

/-- One step of the loop: the running sum plus the 0/1 block of the comparison of column `s` of the tokens (spread
    over the 128 lanes) with the id row (spread over the 256 rows). -/
def step (v5 : IVec S1x128 32) (v6 : Vec F S256x200 .i32) (s : Nat) (hs : S256x200.Slices ![0, s] S256x1)
    (acc : FVec F S256x128 .bf16) : FVec F S256x128 .bf16 :=
  addf acc (truncf .bf16 (sitofp .f32 (extui 32 (cmpi .eq
    (broadcastTo S256x128 (extractStridedSlice S256x1 ![0, s] v6 hs) broadcasts_S256x1_S256x128)
    (broadcastTo S256x128 v5 broadcasts_S1x128_S256x128)) natLt_1_32)) bitsLt_bf16_f32)

/-- The running sum after the first `n` steps: the zero block, then one `step` per column 0, 1, …, n − 1. -/
def accUpTo (v5 : IVec S1x128 32) (v6 : Vec F S256x200 .i32) : (n : Nat) → n ≤ 200 → FVec F S256x128 .bf16
  | 0, _ => broadcast S256x128 (Scalar.ofBits .bf16 0x0000#16)
  | n + 1, h => step v5 v6 n (slices_col n h) (accUpTo v5 v6 n (Nat.le_of_succ_le h))

/-- The block grid point `i` stores is the widening of the running sum after all 200 steps. The payload definitions are
    the body's 200 unrolled steps cut into consecutive stretches, each stretch a definition over the values of the
    stretches before it; unfolded, they are the same nest of 200 steps as `accUpTo 200`, step for step, so the two
    sides are the same term. -/
theorem out0_1_eq (i : grid0.Coords) (x0 : Vec F S256x200 .i32) :
    GenP.out0_1 (F := F) i x0
      = View.canon [⟨GenP.r0_1,
          extf .f32 (accUpTo (k0_pay1 i) (View.ld x0 GenP.r0_0) 200 (Nat.le_refl _)) bitsLt_bf16_f32⟩] := rfl

/-- Column `s` of the block, spread over the 128 lanes, reads at `(p, q)` the token at `(p, s)`: the spreading reads the
    column at `(p, 0)` (its second axis has extent 1), and the slice at offsets `(0, s)` reads the block at `(0 + p, s + 0)`. -/
theorem col_apply (v6 : IVec S256x200 32) (s : Nat) (h : s < 200) (hs : S256x200.Slices ![0, s] S256x1)
    (p : Fin 256) (q : Fin 128) :
    broadcastTo S256x128 (extractStridedSlice S256x1 ![0, s] v6 hs) broadcasts_S256x1_S256x128 (ix2 p q)
      = v6 (ix2 p ⟨s, h⟩) :=
  (broadcastTo_apply _ _ (ix2 p q) (ix2 p (0 : Fin 1)) (fun a => by fin_cases a <;> rfl)).trans
    (extractStridedSlice_apply _ _ _ (ix2 p (0 : Fin 1)) (ix2 p ⟨s, h⟩) (fun a => by
      fin_cases a
      · exact (Nat.zero_add _).symm
      · rfl))

/-- The id row, spread over the 256 rows, reads at `(p, q)` the id of lane `q`: its first axis has extent 1, so the
    spreading reads it at `(0, q)`. -/
theorem row_apply (v5 : IVec S1x128 32) (p : Fin 256) (q : Fin 128) :
    broadcastTo S256x128 v5 broadcasts_S1x128_S256x128 (ix2 p q) = v5 (ix2 (0 : Fin 1) q) :=
  broadcastTo_apply _ _ (ix2 p q) (ix2 (0 : Fin 1) q) (fun a => by fin_cases a <;> rfl)

end AnyInstance

/-- One step at an entry: the running sum there plus the 0/1 value of "the token at `(p, s)` is lane `q`'s id". The
    sum, the two format changes, the conversion, the widening and the comparison are all entry by entry (the format
    changes are the identity on the extended reals); what is left is the two spread operands read at `(p, q)`. -/
theorem step_apply (v5 : IVec S1x128 32) (v6 : Vec Ideal S256x200 .i32) (s : Nat) (h : s < 200)
    (hs : S256x200.Slices ![0, s] S256x1) (acc : FVec Ideal S256x128 .bf16) (p : Fin 256) (q : Fin 128) :
    step (F := Ideal) v5 v6 s hs acc (ix2 p q)
      = acc (ix2 p q) + hit (v6 (ix2 p ⟨s, h⟩)) (v5 (ix2 (0 : Fin 1) q)) := by
  unfold step
  rw [addf_apply, truncf_apply, sitofp_apply, extui_apply]
  show _ + FloatOps.sitofp (F := Ideal) .f32 (BitVec.setWidth 32 (IntOp.cmpi .eq
      (broadcastTo S256x128 (extractStridedSlice S256x1 ![0, s] v6 hs) broadcasts_S256x1_S256x128 (ix2 p q))
      (broadcastTo S256x128 v5 broadcasts_S1x128_S256x128 (ix2 p q)))) = _
  rw [col_apply v6 s h hs p q, row_apply, hit_of_cmp]

/-- The bf16 pattern of all zero bits is the number 0: zero exponent field, zero fraction. -/
theorem ofBits_zero_bf16 : Ideal.ofBits .bf16 0x0000#16 = 0 := by simp [Ideal.ofBits, Ideal.ieee]

/-- After `n` steps the running sum at `(p, q)` is the number of the first `n` positions of row `p` whose token is
    lane `q`'s id. By induction on `n`: the zero block is the empty sum, and step `n` adds the summand of position `n`,
    the last of the first `n + 1`. -/
theorem accUpTo_apply (v5 : IVec S1x128 32) (v6 : Vec Ideal S256x200 .i32) (p : Fin 256) (q : Fin 128) :
    ∀ (n : Nat) (h : n ≤ 200), accUpTo (F := Ideal) v5 v6 n h (ix2 p q)
      = ∑ s : Fin n, hit (v6 (ix2 p (Fin.castLE h s))) (v5 (ix2 (0 : Fin 1) q))
  | 0, _ => by
    show Ideal.ofBits .bf16 0x0000#16 = _
    rw [ofBits_zero_bf16, Finset.univ_eq_empty, Finset.sum_empty]
  | n + 1, h => by
    show step (F := Ideal) v5 v6 n (slices_col n h) (accUpTo v5 v6 n (Nat.le_of_succ_le h)) (ix2 p q) = _
    rw [step_apply v5 v6 n h, accUpTo_apply v5 v6 p q n (Nat.le_of_succ_le h), Fin.sum_univ_castSucc]
    rfl

/-- Entry `(p, q)` of the block grid point `i` stores: the count, over the 200 positions of block row `p`, of
    the tokens equal to the id of column `128·i₁ + q`. -/
theorem out_apply (i : grid0.Coords) (x0 : Vec Ideal S256x200 .i32) (p : Fin 256) (q : Fin 128) :
    Cert.KernelIdeal.GenP.out0_1 (F := Ideal) i x0 (ix2 p q)
      = ∑ s : Fin 200, hit (x0 (ix2 p s)) (colId (128 * (i 1).val + q.val)) := by
  -- the one whole-block store leaves its payload, the whole-block load reads the block itself, the widening is the
  -- identity entry by entry; then the running sum after 200 steps, with the id row read at lane `q`
  rw [out0_1_eq, View.canon_unit_zero zero_offsets, View.ld_unit_zero (S := S256x200) zero_offsets, extf_apply,
    accUpTo_apply, idrow_apply]
  rfl

end Cert.Bow

end
-- ==== Proof.SliceTail.lean ====
/-
  Dropping the padded columns.

  The tiled computation fills 1152 columns (nine tiles of 128); the result keeps the first 1099. Both
  arrays are the same function of the row and the column number, `count x b c`, so the block of 1099
  columns taken at offset (0, 0) out of the wide array is the narrow array: the source index of the
  slice has the same two coordinates as the index it is read at.
-/
import proofs.«429067_j37941741093587_3_alg».proof.Proof.Spec
import Idealize.ShloMosaic.Lib.ValueIdx
import Idealize.ShloMosaic.Lib.Pipeline.Value

noncomputable section

namespace Cert.Bow

open Idealize.ShloMosaic Idealize.ShloMosaic.ValueIdx

/-- The first 1099 of the 1152 columns of the wide counts are the counts. -/
theorem slice_wide (x : IVec (⟨2, ![16384, 200]⟩ : Shape) 32)
    (h : (⟨2, ![16384, 1152]⟩ : Shape).Slices ![0, 0] (⟨2, ![16384, 1099]⟩ : Shape)) :
    extractStridedSlice (⟨2, ![16384, 1099]⟩ : Shape) ![0, 0] (Gwide x) h = G x := by
  funext j
  -- read the slice at `j` as the wide array at the index with the same two coordinates
  refine (extractStridedSlice_apply ![0, 0] (Gwide x) h j (ix2 ⟨(j 0).val, (j 0).isLt⟩ ⟨(j 1).val, by
    have := (j 1).isLt
    show (j 1).val < 1152
    have h1 : (j 1).val < 1099 := this
    omega⟩) ?_).trans ?_
  · -- offsets are zero on both axes
    intro a
    fin_cases a
    · show (j 0).val = 0 + (j 0).val
      omega
    · show (j 1).val = 0 + (j 1).val
      omega
  · -- both sides are the count of row `j 0` and column `j 1`
    rfl

end Cert.Bow

end
-- ==== Proof.KernelValue.lean ====
/-
  The tiled computation's result array.

  Grid point `t = 9·i₀ + i₁` reads rows `256·i₀ … 256·i₀ + 255` of the token array (all 200 columns) and writes rows
  `256·i₀ …`, columns `128·i₁ … 128·i₁ + 127` of a [16384, 1152] array. What it writes at block entry `(p, q)` is the
  count of the tokens of array row `256·i₀ + p` equal to the id of column `128·i₁ + q` (Proof/Payload.lean): block `t` of
  the one function `Gwide` of the token array. The 64 × 9 blocks tile the array, entry `(r, k)` lying in the block of
  point `9·(r / 256) + k / 128`, so after the last point the array IS `Gwide`. The one host operation after the grid keeps
  columns 0 … 1098: the counts `G`.
-/
import proofs.«429067_j37941741093587_3_alg».proof.Proof.Spec
import proofs.«429067_j37941741093587_3_alg».proof.Proof.FrameKI
import proofs.«429067_j37941741093587_3_alg».proof.Proof.Payload
import proofs.«429067_j37941741093587_3_alg».proof.Proof.SliceTail
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.GenP Cert.Bow
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The index maps over the grid: point `t` is `(t / 9, t % 9)`; the input block's row index is `t / 9` and its column
    index 0; the output block's indices are `(t / 9, t % 9)`. -/
theorem idx_facts : ∀ t : Fin cfg0.N,
    win0_0.index t (0 : Fin 2) = t.val / 9 ∧ win0_0.index t (1 : Fin 2) = 0
    ∧ win0_1.index t (0 : Fin 2) = t.val / 9 ∧ win0_1.index t (1 : Fin 2) = t.val % 9
    ∧ ((grid0.coords t) 1).val = t.val % 9 :=
  (by decide +kernel : ∀ t : Fin grid0.N, _)

/-- The stored block at any index of the block, by its two coordinates. -/
theorem out_apply' (i : grid0.Coords) (x0 : Vec Ideal S256x200 .i32) (j : S256x128.Idx) :
    out0_1 (F := Ideal) i x0 j = ∑ s : Fin 200, hit (x0 (ix2 (j 0) s)) (colId (128 * (i 1).val + (j 1).val)) :=
  (congrArg (out0_1 (F := Ideal) i x0) (eq_ix2 j)).trans (out_apply i x0 (j 0) (j 1))

/-- What point `t` writes back is block `t` of the wide counts of the token array. -/
theorem flushed_eq (c : Dev nD) (t : Fin cfg0.N) :
    (dats m 0 c).flushed 1 t = ((cfg0.win 1).blk t).view.read (Elt Ideal) (Gwide (V m c main_arg0)) := by
  show (cfg0.win 1).cut (grid0.coords t) ((dats m 0 c).after 1 t) = _
  rw [after0_1]
  obtain ⟨e0, e1, e2, e3, e4⟩ := idx_facts t
  funext j
  show out0_1 (grid0.coords t) (iblk m c 0 t) j = Gwide (V m c main_arg0) (((cfg0.win 1).blk t).view.emb j)
  refine (out_apply' (grid0.coords t) (iblk m c 0 t) j).trans ?_
  unfold Gwide Cert.Bow.count
  refine Finset.sum_congr rfl fun s _ => ?_
  have hrow : iblk m c 0 t (ix2 (j 0) s) = V m c main_arg0 (ix2 (((cfg0.win 1).blk t).view.emb j 0) s) := by
    show V m c main_arg0 (((cfg0.win 0).blk t).view.emb (ix2 (j 0) s)) = _
    refine congrArg (V m c main_arg0) ?_
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 200 + 1 * s.val = s.val; omega
  have hcol : (((cfg0.win 1).blk t).view.emb j 1).val = 128 * ((grid0.coords t) 1).val + (j 1).val := by
    show win0_1.index t (1 : Fin 2) * 128 + 1 * (j 1).val = _; omega
  rw [hrow, hcol]

/-- An index of the wide array is in point `t`'s block iff each coordinate is in the block's range on its axis. -/
theorem mem_blk (t : Fin cfg0.N) (i : S16384x1152.Idx) :
    i ∈ ((cfg0.win 1).blk t).view.set ↔ ∀ a : Fin 2, win0_1.index t a * S256x128.size a ≤ (i a).val ∧ (i a).val < win0_1.index t a * S256x128.size a + S256x128.size a := by
  show i ∈ ((View.whole main_v0).slice (win0_1.rect t)).set ↔ _
  rw [View.set_slice_whole, Rect.mem_set_unit]
  exact Iff.rfl

/-- Every index `(r, k)` of the wide array lies in the block of point `9·(r / 256) + k / 128`, which is written back. -/
theorem cover (i : S16384x1152.Idx) :
    ∃ t : Fin cfg0.N, (cfg0.win 1).flush t = true ∧ i ∈ ((cfg0.win 1).blk t).view.set := by
  have hi0 : (i 0).val < 16384 := (i 0).isLt
  have hi1 : (i 1).val < 1152 := (i 1).isLt
  have hN : (i 0).val / 256 * 9 + (i 1).val / 128 < cfg0.N := by
    show _ < grid0.N; rw [N_0]; omega
  refine ⟨⟨(i 0).val / 256 * 9 + (i 1).val / 128, hN⟩, flush0_1 _, ?_⟩
  obtain ⟨e0, e1, e2, e3, e4⟩ := idx_facts ⟨(i 0).val / 256 * 9 + (i 1).val / 128, hN⟩
  rw [mem_blk]
  intro a
  match a with
  | ⟨0, _⟩ => show win0_1.index _ (0 : Fin 2) * 256 ≤ (i 0).val ∧ (i 0).val < win0_1.index _ (0 : Fin 2) * 256 + 256; simp only [] at e2; omega
  | ⟨1, _⟩ => show win0_1.index _ (1 : Fin 2) * 128 ≤ (i 1).val ∧ (i 1).val < win0_1.index _ (1 : Fin 2) * 128 + 128; simp only [] at e3; omega

/-- After the last grid point the wide array holds the wide counts. -/
theorem final (c : Dev nD) : (dats m 0 c).arrAt 1 cfg0.N = Gwide (V m c main_arg0) :=
  (dats m 0 c).arrAt_eq_of_cover 1 (Gwide (V m c main_arg0)) (fun t _ => flushed_eq m c t) cover

/-- The result, the wide array's first 1099 columns, holds the counts. -/
theorem tail_eq (c : Dev nD) :
    Pipeline.afterTail₀ cfgs (dats m) 0 (V0 m) [hostOps1] c main_v1 = G (m ((c : Thread nD τ).loc main_arg0)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = Gwide (m ((c : Thread nD τ).loc main_arg0)) :=
    (Pipeline.withArrays_arr spec0 launch0.win.arr_inj c _ _ 1).trans (final m c)
  refine (congrArg (fun y => extractStridedSlice S16384x1099 ![0, 0] y slices_S16384x1152_S16384x1099_0_0) hw).trans ?_
  exact slice_wide _ _

/-- Every weakly fair execution ends with the result at the counts of the token array, the token array unchanged. -/
theorem run : θ_run defs (onTc (τ := τ) (main (F := Ideal))) ⟨m, fun _ => 0, ρ⟩ fun r => ∀ c : Dev nD,
      r.2.mem ((c.tc : Thread nD τ).loc main_v1) = G (m ((c.tc : Thread nD τ).loc main_arg0))
      ∧ r.2.mem ((c.tc : Thread nD τ).loc main_arg0) = m ((c.tc : Thread nD τ).loc main_arg0) :=
  (θ_run defs _ _).mono (fun r h c => ⟨((h c).2 main_v1 (by decide)).trans (tail_eq m c),
      ((h c).1 0).trans (((dats m 0 c).arrAt_in 0 rfl _).trans ((A_eq m c 0).trans (V_main_arg0 m c)))⟩)
    (run_main m ρ)

end Cert.KernelIdeal.KValue

end
-- ==== Proof.RefCount.lean ====
/-
  The reference, read at an index.

  The reference starts from a [16384, 1100] array of zeros and, for every row `b` and position `s`, adds 1 at
  `(b, x[b, s])`; it then drops column 0. With no negative token there is nothing to wrap, a token of 1100 or more
  lands outside the array and adds nothing, and entry `(b, c)` of the result — column `c + 1` of the sums — is the
  number of positions of row `b` whose token is `c + 1`.

  The steps. (1) The scatter's landing index, in closed form: the update at `(b, s)` lands at `(r, t)` exactly when
  the two index words at `(b, s, 0)` and `(b, s, 1)`, read signed, are `r` and `t` (the window is empty, so the
  window coordinate is 0 on both axes; a pair outside the array lands nowhere). (2) The index pairs: word 0 is the
  row number `b` (a row number is never negative, so its wrap is not taken), word 1 is the token (not negative by
  hypothesis, so its wrap is not taken either). (3) The sum of the updates, all 1, over the positions that land at
  `(b, c + 1)` is the sum over row `b` alone of "the token is `c + 1`", which is the count.
-/
import proofs.«429067_j37941741093587_3_alg».proof.Proof.Spec
import proofs.«429067_j37941741093587_3_alg».proof.Proof.Gen.ReferenceIdeal.Run
import proofs.«429067_j37941741093587_3_alg».proof.Proof.Gen.ReferenceIdeal.Read
import Idealize.ShloMosaic.Lib.ValueIdx
import Idealize.ShloMosaic.Lib.Pipeline.Value
import Idealize.ShloMosaic.Lib.StableHlo.Predicate

noncomputable section

namespace Cert.Bow

open Idealize.ShloMosaic Idealize.ShloMosaic.ValueIdx Cert.ReferenceIdeal Cert.ReferenceIdeal.Gen

open Idealize.ShloMosaic.StableHlo.Predicate (toInt_ofNat_small ofBool_eq_one_iff slt_iff_toNat)

namespace RefCount

/-- The scatter's dimension numbers: no window axis, both operand axes inserted, index component `k` goes to
    operand axis `k`, the components lie along axis 2 of the index array. -/
abbrev dims := scatter_S16384x1100_S16384x200x2_S16384x200_n_01_01_2

/-! ## The landing index in closed form -/

/-- The start of the window on operand axis `a` for the update at `p`: the index word at `(p 0, p 1, a)`, read
    signed. -/
theorem start_eq (p : S16384x200.Idx) (idx : IVec S16384x200x2 32) (a : Fin 2) :
    dims.start p idx a = (idx (ix3 (p 0) (p 1) a)).toInt := by
  match a with
  | ⟨0, _⟩ =>
    unfold ScatterDims.start
    rw [dif_pos (by decide +revert)]
    congr 2
    funext b
    match b with
    | ⟨0, _⟩ => rfl
    | ⟨1, _⟩ => rfl
    | ⟨2, _⟩ => rfl
  | ⟨1, _⟩ =>
    unfold ScatterDims.start
    rw [dif_pos (by decide +revert)]
    congr 2
    funext b
    match b with
    | ⟨0, _⟩ => rfl
    | ⟨1, _⟩ => rfl
    | ⟨2, _⟩ => rfl

/-- Both operand axes are inserted window axes: the window coordinate is 0. -/
theorem window_zero (p : S16384x200.Idx) (a : Fin 2) : dims.window p a = 0 := rfl

/-- The update at `p` lands at `i` exactly when its two index words, read signed, are `i`'s coordinates. A pair
    outside the array equals no `i`, and such an update lands nowhere. -/
theorem resultIdx?_eq_some_iff (p : S16384x200.Idx) (idx : IVec S16384x200x2 32) (i : S16384x1100.Idx) :
    dims.resultIdx? p idx = some i ↔
      (idx (ix3 (p 0) (p 1) (0 : Fin 2))).toInt = ((i 0).val : Int)
        ∧ (idx (ix3 (p 0) (p 1) (1 : Fin 2))).toInt = ((i 1).val : Int) := by
  have hs : ∀ a : Fin 2, dims.start p idx a + (dims.window p a : Int) = (idx (ix3 (p 0) (p 1) a)).toInt := fun a => by
    rw [start_eq, window_zero]; simp
  have hi0 : (i 0).val < 16384 := (i 0).isLt
  have hi1 : (i 1).val < 1100 := (i 1).isLt
  unfold ScatterDims.resultIdx?
  split
  · next h =>
    rw [Option.some.injEq]
    constructor
    · intro e
      have e0 := congrArg (fun f => ((f 0).val : Int)) e
      have e1 := congrArg (fun f => ((f 1).val : Int)) e
      simp only at e0 e1
      have h0 := h 0
      have h1 := h 1
      rw [hs] at h0 h1
      constructor
      · rw [← e0, hs 0]; omega
      · rw [← e1, hs 1]; omega
    · rintro ⟨e0, e1⟩
      funext a
      apply Fin.ext
      match a with
      | ⟨0, _⟩ => show (dims.start p idx 0 + (dims.window p 0 : Int)).toNat = (i 0).val; rw [hs 0, e0]; omega
      | ⟨1, _⟩ => show (dims.start p idx 1 + (dims.window p 1 : Int)).toNat = (i 1).val; rw [hs 1, e1]; omega
  · next h =>
    constructor
    · intro e; exact absurd e (by simp)
    · rintro ⟨e0, e1⟩
      exfalso; apply h
      intro a
      match a with
      | ⟨0, _⟩ =>
        show 0 ≤ dims.start p idx 0 + (dims.window p 0 : Int) ∧ dims.start p idx 0 + (dims.window p 0 : Int) < 16384
        rw [hs 0, e0]; omega
      | ⟨1, _⟩ =>
        show 0 ≤ dims.start p idx 1 + (dims.window p 1 : Int) ∧ dims.start p idx 1 + (dims.window p 1 : Int) < 1100
        rw [hs 1, e1]; omega

/-! ## The index pairs -/

open Cert.ReferenceIdeal.Read in
/-- The wrapped row number is the row number: it is below 16384, so it is not negative as a signed word. -/
theorem v7_apply (i : S16384x1.Idx) : val_main_v7 (F := Ideal) i = BitVec.ofNat 32 (i 0).val := by
  have hb : (i 0).val < 16384 := (i 0).isLt
  rw [val_main_v7_apply, val_main_v4_apply, val_main_v1_apply, val_main_v0_apply, val_main_v3_apply, val_main_c_apply]
  have hc : IntOp.cmpi .slt (BitVec.ofNat 32 (i 0).val) 0#32 ≠ 1#1 := by
    intro h
    have := (slt_iff_toNat (a := BitVec.ofNat 32 (i 0).val) (b := 0#32)
      (by simp [BitVec.toNat_ofNat]; omega) (by simp)).1 h
    simp at this
  rw [eq_zero_of_ne_one hc, select_zero]

open Cert.ReferenceIdeal.Read in
/-- With no negative token the wrapped token is the token. -/
theorem v12_apply (x : IVec S16384x200 32) (hx : ∀ j, 0 ≤ (x j).toInt) (i : S16384x200.Idx) :
    val_main_v12 (F := Ideal) x i = x i := by
  rw [val_main_v12_apply, val_main_v9_apply, val_main_v8_apply, val_main_c_1_apply]
  have hc : IntOp.cmpi .slt (x i) 0#32 ≠ 1#1 := by
    intro h
    unfold IntOp.cmpi at h
    have h2 := (ofBool_eq_one_iff _).1 h
    simp only [BitVec.slt, decide_eq_true_eq] at h2
    have := hx i
    simp at h2
    omega
  rw [eq_zero_of_ne_one hc, select_zero]

open Cert.ReferenceIdeal.Read in
/-- Component 0 of the index pair at `(b, s)`: the row number. Coordinate 0 of the joined axis falls in the first
    piece. -/
theorem v16_apply_0 (x : IVec S16384x200 32) (b : Fin 16384) (s : Fin 200) :
    val_main_v16 (F := Ideal) x (ix3 b s (0 : Fin 2)) = BitVec.ofNat 32 b.val := by
  unfold val_main_v16
  refine (concatenate_pair_apply_left (t := S16384x200x2) (s₁ := S16384x200x1) (s₂ := S16384x200x1) (2 : Fin 3)
    _ _ _ _ rfl (ix3 b s (0 : Fin 1)) ?_).trans ?_
  · intro c
    match c with
    | ⟨0, _⟩ => rfl
    | ⟨1, _⟩ => rfl
    | ⟨2, _⟩ => rfl
  · rw [val_main_v14_apply, val_main_v13_apply, v7_apply]

open Cert.ReferenceIdeal.Read in
/-- Component 1 of the index pair at `(b, s)`: the token, when no token is negative. Coordinate 1 of the joined
    axis falls in the second piece, at its coordinate 0. -/
theorem v16_apply_1 (x : IVec S16384x200 32) (hx : ∀ j, 0 ≤ (x j).toInt) (b : Fin 16384) (s : Fin 200) :
    val_main_v16 (F := Ideal) x (ix3 b s (1 : Fin 2)) = x (ix2 b s) := by
  unfold val_main_v16
  refine (concatenate_pair_apply_right (t := S16384x200x2) (s₁ := S16384x200x1) (s₂ := S16384x200x1) (2 : Fin 3)
    _ _ _ _ rfl rfl (ix3 b s (0 : Fin 1)) ?_ ?_).trans ?_
  · intro c hc
    match c with
    | ⟨0, _⟩ => rfl
    | ⟨1, _⟩ => rfl
    | ⟨2, _⟩ => exact absurd rfl hc
  · rfl
  · rw [val_main_v15_apply, v12_apply x hx]
    congr 1
    funext a
    match a with
    | ⟨0, _⟩ => rfl
    | ⟨1, _⟩ => rfl

/-! ## Words and constants -/

/-- A word reads, signed, as `n` (below 2³¹) exactly when it is the word of `n`: the signed reading is injective. -/
theorem toInt_eq_iff (w : BitVec 32) (n : Nat) (hn : n < 2 ^ 31) : w.toInt = (n : Int) ↔ w = BitVec.ofNat 32 n := by
  constructor
  · intro h
    apply BitVec.eq_of_toInt_eq
    rw [h, toInt_ofNat_small n hn]
  · rintro rfl
    exact toInt_ofNat_small n hn

/-- The pattern of 1.0 denotes 1. -/
theorem one_f32 : Ideal.ofBits .f32 0x3F800000#32 = (1 : EReal) := by
  simp [Ideal.ofBits, Ideal.ieee, -EReal.coe_mul]; norm_num

/-- The pattern of +0.0 denotes 0. -/
theorem zero_f32 : Ideal.ofBits .f32 0x00000000#32 = (0 : EReal) := by
  simp [Ideal.ofBits, Ideal.ieee]

end RefCount

open RefCount in
/-- Under "no token is negative", entry `(b, c)` of the reference's result is the count of row `b`'s tokens
    equal to `c + 1`. -/
theorem ref_apply (x : IVec S16384x200 32) (hx : ∀ j, 0 ≤ (x j).toInt) (j : S16384x1099.Idx) :
    Cert.ReferenceIdeal.Read.val_main_v19 (F := Ideal) x j = count x (j 0) (j 1).val := by
  -- the slice reads column `1 + c` of the sums; the sums are the zero array plus the updates that land there
  rw [Read.val_main_v19_apply]
  show Read.val_main_v2 (F := Ideal) (Read.idx_main_v19 j)
      + ∑ p ∈ Finset.univ.filter (fun p => dims.resultIdx? p (Read.val_main_v16 (F := Ideal) x) = some (Read.idx_main_v19 j)),
          Read.val_main_v17 (F := Ideal) p = _
  have h2 : Read.val_main_v2 (F := Ideal) (Read.idx_main_v19 j) = 0 := by
    rw [Read.val_main_v2_apply, Read.val_main_cst_apply]; exact zero_f32
  have h17 : ∀ p, Read.val_main_v17 (F := Ideal) p = 1 := fun p => by
    rw [Read.val_main_v17_apply, Read.val_main_cst_3_apply]; exact one_f32
  have hj1 : (j 1).val < 1099 := (j 1).isLt
  -- a sum over the landing positions is the sum over all positions of an indicator; split it by row and position
  rw [h2, zero_add, Finset.sum_filter, sum_idx2]
  -- position `(b, s)` lands at `(j 0, 1 + j 1)` exactly when `b` is the row and the token is the column's id
  have key : ∀ (b : Fin 16384) (s : Fin 200),
      (if dims.resultIdx? (ix2 b s) (Read.val_main_v16 (F := Ideal) x) = some (Read.idx_main_v19 j)
        then Read.val_main_v17 (F := Ideal) (ix2 b s) else 0)
      = if b.val = (j 0).val then hit (x (ix2 b s)) (colId (j 1).val) else 0 := fun b s => by
    have hb : b.val < 16384 := b.isLt
    have hiff : dims.resultIdx? (ix2 b s) (Read.val_main_v16 (F := Ideal) x) = some (Read.idx_main_v19 j)
        ↔ b.val = (j 0).val ∧ x (ix2 b s) = colId (j 1).val := by
      rw [resultIdx?_eq_some_iff]
      show (Read.val_main_v16 (F := Ideal) x (ix3 b s (0 : Fin 2))).toInt = (((j 0).val : Nat) : Int)
          ∧ (Read.val_main_v16 (F := Ideal) x (ix3 b s (1 : Fin 2))).toInt = ((1 + (j 1).val : Nat) : Int) ↔ _
      rw [v16_apply_0, v16_apply_1 x hx, toInt_ofNat_small b.val (by omega),
        toInt_eq_iff _ _ (by omega), Nat.add_comm 1]
      unfold colId
      constructor
      · rintro ⟨e, h⟩; exact ⟨by exact_mod_cast e, h⟩
      · rintro ⟨e, h⟩; exact ⟨by exact_mod_cast e, h⟩
    rw [h17, if_congr hiff rfl rfl]
    unfold hit
    by_cases e : b.val = (j 0).val
    · by_cases t : x (ix2 b s) = colId (j 1).val
      · rw [if_pos ⟨e, t⟩, if_pos e, if_pos t]
      · rw [if_neg (fun h => t h.2), if_pos e, if_neg t]
    · rw [if_neg (fun h => e h.1), if_neg e]
  rw [Finset.sum_congr rfl (fun b _ => Finset.sum_congr rfl (fun s _ => key b s))]
  -- only row `j 0` contributes
  refine (Finset.sum_eq_single (j 0 : Fin 16384) ?_ ?_).trans ?_
  rotate_left 2
  · unfold count
    exact Finset.sum_congr rfl (fun s _ => if_pos rfl)
  · intro b _ hb
    exact Finset.sum_eq_zero (fun s _ => if_neg (fun h => hb (Fin.ext h)))
  · intro h; exact absurd (Finset.mem_univ _) h

end Cert.Bow

end
-- ==== Proof.PreDecode.lean ====
/-
  The precondition read: every token id is non-negative.

  The printed precondition is the conjunction, over all 16384 × 200 entries, of the signed comparison
  `x ≥ 0`. It is all ones exactly when every entry, read as a signed 32-bit integer, is at least zero.
-/
import proofs.«429067_j37941741093587_3_alg».proof.Pre_any_inputs
import proofs.«429067_j37941741093587_3_alg».proof.Proof.Gen.Pre_any_inputs
import Idealize.ShloMosaic.PureOps.Ideal
import Idealize.ShloMosaic.Lib.ValueIdx
import Idealize.ShloMosaic.Lib.ReduceAll

noncomputable section

namespace Cert.Bow

open Idealize.ShloMosaic Idealize.ShloMosaic.ValueIdx

/-- If the printed precondition holds of the token array, no token is negative. -/
theorem nonneg_of_pre (x : IVec (⟨2, ![16384, 200]⟩ : Shape) 32)
    (h : Cert.Pre_any_inputs.fn (F := Ideal) x = fun _ => 1#1) :
    ∀ j, 0 ≤ (x j).toInt := by
  intro j
  -- the rank-0 result has a single index, so the conjunction ranges over every entry
  haveI : Subsingleton (Cert.Pre_any_inputs.S_).Idx := ⟨fun a b => funext fun d => d.elim0⟩
  have h0 := congrFun h ValueIdx.ix0
  dsimp only [Cert.Pre_any_inputs.fn] at h0
  -- every entry of the comparison mask is 1
  have hj := Host.reduce_andi_all _ _ _ _ _ h0 j
  -- the entry at `j` compares `x j` with the broadcast constant 0, signed
  have hle := IntOp.cmpi_sge.1 hj
  -- the broadcast of the rank-0 constant reads 0 at every index, and 0 as a signed word is 0
  exact hle

end Cert.Bow

end
-- ==== Proof.lean ====
/-
  Bag-of-words counts: the tiled kernel against the scatter-add reference.

  For a token array `x : int32[16384, 200]` both programs compute, for every row `b` and every id `1 ≤ k ≤ 1099`, how many of
  the row's 200 tokens equal `k` (`Cert.Bow.G`, Proof/Spec.lean).
  * The kernel works on a grid of 64 × 9 points. Point `(i₀, i₁)` takes rows `256·i₀ …` and compares each of the 200 token
    columns with the ids `128·i₁ + q + 1`, adding the 0/1 results: its [256, 128] block holds those counts
    (Proof/Payload.lean). The blocks tile a [16384, 1152] array (Proof/KernelValue.lean), whose first 1099 columns are kept
    (Proof/SliceTail.lean). The running sum is kept in a narrower float format; on the extended reals a change of format is
    the identity and the sum of 200 zeros and ones is exact.
  * The reference adds 1 at `(b, x[b, s])` into a [16384, 1100] array of zeros and drops column 0. It first wraps a
    negative token by adding 1100, which the kernel does not: a token of −1 counts for id 1099 in the reference and for
    nothing in the kernel. So the claim is stated under the precondition that no token is negative (Proof/PreDecode.lean
    reads it); a token of 1100 or more lands outside the array and counts for nothing on both sides
    (Proof/RefCount.lean).
  The frames of the two kernel programs are the generated frame certificates, whose stored value reads the grid position
  (Proof/FrameK.lean, Proof/FrameKI.lean); the reference's frame is its generated run with the result dropped. The ideal
  pass rewrote nothing, so `preserves` is trivial.
-/
import proofs.«429067_j37941741093587_3_alg».proof.Defs
import proofs.«429067_j37941741093587_3_alg».proof.Proof.Gen.Kernel
import proofs.«429067_j37941741093587_3_alg».proof.Proof.Gen.KernelIdeal
import proofs.«429067_j37941741093587_3_alg».proof.Proof.Gen.ReferenceIdeal
import proofs.«429067_j37941741093587_3_alg».proof.Proof.Gen.Pre_any_inputs
import proofs.«429067_j37941741093587_3_alg».proof.Proof.Gen.ReferenceIdeal.Run
import proofs.«429067_j37941741093587_3_alg».proof.Proof.Gen.ReferenceIdeal.Read
import proofs.«429067_j37941741093587_3_alg».proof.Proof.FrameK
import proofs.«429067_j37941741093587_3_alg».proof.Proof.FrameKI
import proofs.«429067_j37941741093587_3_alg».proof.Proof.KernelValue
import proofs.«429067_j37941741093587_3_alg».proof.Proof.RefCount
import proofs.«429067_j37941741093587_3_alg».proof.Proof.PreDecode
import Idealize.ShloMosaic.Adequacy
import Idealize.ShloMosaic.Init

noncomputable section

namespace Cert.Proof

open Idealize.ShloMosaic Idealize.SL.Sem

/-- The word-level kernel runs and leaves the token array unchanged. -/
theorem frame_k : Cert.frame_Kernel := fun m ρ _ => Cert.Kernel.GenP.frame m ρ

/-- So does the kernel read on the extended reals. -/
theorem frame_ki : Cert.frame_KernelIdeal := fun m ρ _ => Cert.KernelIdeal.GenP.frame m ρ

/-- The reference runs and leaves the token array unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- With no negative token, both programs end with the counts `G` of the token array. -/
theorem algebraic : Cert.algebraic_KernelIdeal_ReferenceIdeal := by
  intro m ρ m' ρ' hpre hagree
  refine ⟨fun c => Cert.Bow.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, hagree c]
  funext j
  exact Cert.Bow.ref_apply _ (Cert.Bow.nonneg_of_pre _ (hpre c)) j

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
